-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S128x64 : Shape := ⟨2, ![128, 64]⟩
abbrev S2x131072 : Shape := ⟨2, ![2, 131072]⟩
abbrev S131072 : Shape := ⟨1, ![131072]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S131072 : S_.BroadcastsInDim S131072 (![] : Fin 0 → Fin S131072.rank)
  reducesTo_S131072_S_d0 : S131072.ReducesTo [0] S_

variable [Facts]

def fn {F : FTy → Type} [FloatOps F] (main_arg0 : FVec F S4096x128 .f32) (main_arg1 : FVec F S128x64 .f32) (main_arg2 : IVec S2x131072 32) (main_arg3 : FVec F S131072 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S131072 .f32 := Host.absf main_arg3
  let main_cst_2 : FVec F S_ .f32 := constant S_ .f32 0x7F800000#32
  let main_v10 : FVec F S131072 .f32 := broadcastInDim S131072 ![] bcast_S_S131072 main_cst_2
  let main_v11 : IVec S131072 1 := cmpf .olt main_v9 main_v10
  let main_c_3 : IVec S_ 1 := constantI S_ 1 1#1
  let main_v12 : IVec S_ 1 := (fun x v => Host.reduce IntOp.andi x v reducesTo_S131072_S_d0 h_S_) main_v11 main_c_3
  let main_v13 : IVec S_ 1 := andi main_v8 main_v12
  main_v13
-- ==== Kernel.lean ====
abbrev S4096x128 : Shape := ⟨2, ![4096, 128]⟩
abbrev S128x64 : Shape := ⟨2, ![128, 64]⟩
abbrev S2x131072 : Shape := ⟨2, ![2, 131072]⟩
abbrev S131072 : Shape := ⟨1, ![131072]⟩
abbrev S4096x64 : Shape := ⟨2, ![4096, 64]⟩
abbrev S512x128 : Shape := ⟨2, ![512, 128]⟩
abbrev S512x64 : Shape := ⟨2, ![512, 64]⟩
abbrev S_ : Shape := ⟨0, ![]⟩
abbrev S4096x4096 : Shape := ⟨2, ![4096, 4096]⟩
abbrev S1x131072 : Shape := ⟨2, ![1, 131072]⟩
abbrev S131072x1 : Shape := ⟨2, ![131072, 1]⟩
abbrev S131072x2 : Shape := ⟨2, ![131072, 2]⟩
abbrev S512x4096 : Shape := ⟨2, ![512, 4096]⟩

abbrev nBuf : Space → Nat
  | .hbm => 33
  | .vmem => 20
  | .smem => 0
  | _ => 0

abbrev bufTy : (tb : Table) → Fin (tcTables nBuf tb) → BufTy
  | .hbm, ⟨0, _⟩ => ⟨S4096x128, .f32⟩
  | .hbm, ⟨1, _⟩ => ⟨S128x64, .f32⟩
  | .hbm, ⟨2, _⟩ => ⟨S2x131072, .i32⟩
  | .hbm, ⟨3, _⟩ => ⟨S131072, .f32⟩
  | .hbm, ⟨4, _⟩ => ⟨S4096x64, .f32⟩
  | .hbm, ⟨5, _⟩ => ⟨S_, .bf16⟩
  | .hbm, ⟨6, _⟩ => ⟨S4096x4096, .bf16⟩
  | .hbm, ⟨7, _⟩ => ⟨S1x131072, .i32⟩
  | .hbm, ⟨8, _⟩ => ⟨S131072, .i32⟩
  | .hbm, ⟨9, _⟩ => ⟨S1x131072, .i32⟩
  | .hbm, ⟨10, _⟩ => ⟨S131072, .i32⟩
  | .hbm, ⟨11, _⟩ => ⟨S131072, .bf16⟩
  | .hbm, ⟨12, _⟩ => ⟨S_, .i32⟩
  | .hbm, ⟨13, _⟩ => ⟨S131072, .i32⟩
  | .hbm, ⟨14, _⟩ => ⟨S131072, .i1⟩
  | .hbm, ⟨15, _⟩ => ⟨S_, .i32⟩
  | .hbm, ⟨16, _⟩ => ⟨S131072, .i32⟩
  | .hbm, ⟨17, _⟩ => ⟨S131072, .i32⟩
  | .hbm, ⟨18, _⟩ => ⟨S131072, .i32⟩
  | .hbm, ⟨19, _⟩ => ⟨S_, .i32⟩
  | .hbm, ⟨20, _⟩ => ⟨S131072, .i32⟩
  | .hbm, ⟨21, _⟩ => ⟨S131072, .i1⟩
  | .hbm, ⟨22, _⟩ => ⟨S_, .i32⟩
  | .hbm, ⟨23, _⟩ => ⟨S131072, .i32⟩
  | .hbm, ⟨24, _⟩ => ⟨S131072, .i32⟩
  | .hbm, ⟨25, _⟩ => ⟨S131072, .i32⟩
  | .hbm, ⟨26, _⟩ => ⟨S131072x1, .i32⟩
  | .hbm, ⟨27, _⟩ => ⟨S131072x1, .i32⟩
  | .hbm, ⟨28, _⟩ => ⟨S131072x2, .i32⟩
  | .hbm, ⟨29, _⟩ => ⟨S4096x4096, .bf16⟩
  | .hbm, ⟨30, _⟩ => ⟨S4096x64, .f32⟩
  | .hbm, ⟨31, _⟩ => ⟨S4096x64, .f32⟩
  | .hbm, ⟨32, _⟩ => ⟨S4096x64, .f32⟩
  | .local _ .vmem, ⟨0, _⟩ => ⟨S512x128, .f32⟩
  | .local _ .vmem, ⟨1, _⟩ => ⟨S512x128, .f32⟩
  | .local _ .vmem, ⟨2, _⟩ => ⟨S128x64, .f32⟩
  | .local _ .vmem, ⟨3, _⟩ => ⟨S512x64, .f32⟩
  | .local _ .vmem, ⟨4, _⟩ => ⟨S512x64, .f32⟩
  | .local _ .vmem, ⟨5, _⟩ => ⟨S512x4096, .bf16⟩
  | .local _ .vmem, ⟨6, _⟩ => ⟨S512x4096, .bf16⟩
  | .local _ .vmem, ⟨7, _⟩ => ⟨S4096x64, .f32⟩
  | .local _ .vmem, ⟨8, _⟩ => ⟨S512x64, .f32⟩
  | .local _ .vmem, ⟨9, _⟩ => ⟨S512x64, .f32⟩
  | .local _ .vmem, ⟨10, _⟩ => ⟨S512x4096, .bf16⟩
  | .local _ .vmem, ⟨11, _⟩ => ⟨S512x4096, .bf16⟩
  | .local _ .vmem, ⟨12, _⟩ => ⟨S4096x64, .f32⟩
  | .local _ .vmem, ⟨13, _⟩ => ⟨S512x64, .f32⟩
  | .local _ .vmem, ⟨14, _⟩ => ⟨S512x64, .f32⟩
  | .local _ .vmem, ⟨15, _⟩ => ⟨S512x4096, .bf16⟩
  | .local _ .vmem, ⟨16, _⟩ => ⟨S512x4096, .bf16⟩
  | .local _ .vmem, ⟨17, _⟩ => ⟨S4096x64, .f32⟩
  | .local _ .vmem, ⟨18, _⟩ => ⟨S512x64, .f32⟩
  | .local _ .vmem, ⟨19, _⟩ => ⟨S512x64, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S512x64_S512x64_0_0 : ∀ a, (![0, 0] : Fin 2 → Nat) a + S512x64.size a ≤ S512x64.size a
  h_S512x64 : 0 < S512x64.numel
  bcast_S_S4096x4096 : S_.BroadcastsInDim S4096x4096 (![] : Fin 0 → Fin S4096x4096.rank)
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  dot_S512x128_S128x64_S512x64_1_0_0_1_n_n_wf : DotDims.WF S512x128 S128x64 S512x64 [1] [0] [0] [1] [] []
  scatter_S4096x4096_S131072x2_S131072_n_01_01_1_wf : ScatterDims.WF S4096x4096 S131072x2 S131072 [] [0, 1] [0, 1] 1
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S4096x128.size a
  hwx0_0 : ∀ i : grid0.Coords, EltTy.bits .f32 = 32 ∨ (Rect.block (s := S4096x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S4096x64.size a
  hwx0_2 : ∀ i : grid0.Coords, EltTy.bits .f32 = 32 ∨ (Rect.block (s := S4096x64) S512x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .bf16 = 32 ∨ (Rect.block (s := S4096x4096) S512x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S4096x64.size a
  hwx1_1 : ∀ i : grid1.Coords, EltTy.bits .f32 = 32 ∨ (Rect.block (s := S4096x64) S4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x64.size a ≤ S4096x64.size a
  hwx1_2 : ∀ i : grid1.Coords, EltTy.bits .f32 = 32 ∨ (Rect.block (s := S4096x64) S512x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .bf16 = 32 ∨ (Rect.block (s := S4096x4096) S512x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x64.size a ≤ S4096x64.size a
  hwx2_1 : ∀ i : grid2.Coords, EltTy.bits .f32 = 32 ∨ (Rect.block (s := S4096x64) S4096x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x64.size a ≤ S4096x64.size a
  hwx2_2 : ∀ i : grid2.Coords, EltTy.bits .f32 = 32 ∨ (Rect.block (s := S4096x64) S512x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x4096.size a ≤ S4096x4096.size a
  hwx3_0 : ∀ i : grid3.Coords, EltTy.bits .bf16 = 32 ∨ (Rect.block (s := S4096x4096) S512x4096.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4096x64.size a ≤ S4096x64.size a
  hwx3_1 : ∀ i : grid3.Coords, EltTy.bits .f32 = 32 ∨ (Rect.block (s := S4096x64) S4096x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x64.size a ≤ S4096x64.size a
  hwx3_2 : ∀ i : grid3.Coords, EltTy.bits .f32 = 32 ∨ (Rect.block (s := S4096x64) S512x64.size (cc3_transform_2 i) (hinb3_2 i)).WholeWords (EltTy.packing .f32)

variable [Facts₀]

def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def scatter_S4096x4096_S131072x2_S131072_n_01_01_1 : ScatterDims S4096x4096 S131072x2 S131072 where
  updateWindowDims := []
  insertedWindowDims := [0, 1]
  scatterDimsToOperandDims := [0, 1]
  indexVectorDim := 1
  wf := scatter_S4096x4096_S131072x2_S131072_n_01_01_1_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v20) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S512x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v20) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S4096x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S512x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v20) S512x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22) S4096x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v23) S512x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S4096x128 : Shape := ⟨2, ![4096, 128]⟩
abbrev S128x64 : Shape := ⟨2, ![128, 64]⟩
abbrev S2x131072 : Shape := ⟨2, ![2, 131072]⟩
abbrev S131072 : Shape := ⟨1, ![131072]⟩
abbrev S4096x64 : Shape := ⟨2, ![4096, 64]⟩
abbrev S_ : Shape := ⟨0, ![]⟩
abbrev S4096x4096 : Shape := ⟨2, ![4096, 4096]⟩
abbrev S1x131072 : Shape := ⟨2, ![1, 131072]⟩
abbrev S131072x1 : Shape := ⟨2, ![131072, 1]⟩
abbrev S131072x2 : Shape := ⟨2, ![131072, 2]⟩

abbrev nBuf : Space → Nat
  | .hbm => 32
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S128x64, .f32⟩
  | .hbm, ⟨2, _⟩ => ⟨S2x131072, .i32⟩
  | .hbm, ⟨3, _⟩ => ⟨S131072, .f32⟩
  | .hbm, ⟨4, _⟩ => ⟨S4096x64, .f32⟩
  | .hbm, ⟨5, _⟩ => ⟨S_, .f32⟩
  | .hbm, ⟨6, _⟩ => ⟨S4096x4096, .f32⟩
  | .hbm, ⟨7, _⟩ => ⟨S1x131072, .i32⟩
  | .hbm, ⟨8, _⟩ => ⟨S131072, .i32⟩
  | .hbm, ⟨9, _⟩ => ⟨S1x131072, .i32⟩
  | .hbm, ⟨10, _⟩ => ⟨S131072, .i32⟩
  | .hbm, ⟨11, _⟩ => ⟨S_, .i32⟩
  | .hbm, ⟨12, _⟩ => ⟨S131072, .i32⟩
  | .hbm, ⟨13, _⟩ => ⟨S131072, .i1⟩
  | .hbm, ⟨14, _⟩ => ⟨S_, .i32⟩
  | .hbm, ⟨15, _⟩ => ⟨S131072, .i32⟩
  | .hbm, ⟨16, _⟩ => ⟨S131072, .i32⟩
  | .hbm, ⟨17, _⟩ => ⟨S131072, .i32⟩
  | .hbm, ⟨18, _⟩ => ⟨S_, .i32⟩
  | .hbm, ⟨19, _⟩ => ⟨S131072, .i32⟩
  | .hbm, ⟨20, _⟩ => ⟨S131072, .i1⟩
  | .hbm, ⟨21, _⟩ => ⟨S_, .i32⟩
  | .hbm, ⟨22, _⟩ => ⟨S131072, .i32⟩
  | .hbm, ⟨23, _⟩ => ⟨S131072, .i32⟩
  | .hbm, ⟨24, _⟩ => ⟨S131072, .i32⟩
  | .hbm, ⟨25, _⟩ => ⟨S131072x1, .i32⟩
  | .hbm, ⟨26, _⟩ => ⟨S131072x1, .i32⟩
  | .hbm, ⟨27, _⟩ => ⟨S131072x2, .i32⟩
  | .hbm, ⟨28, _⟩ => ⟨S4096x4096, .f32⟩
  | .hbm, ⟨29, _⟩ => ⟨S4096x64, .f32⟩
  | .hbm, ⟨30, _⟩ => ⟨S4096x64, .f32⟩
  | .hbm, ⟨31, _⟩ => ⟨S4096x64, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  dot_S4096x128_S128x64_S4096x64_1_0_0_1_n_n_wf : DotDims.WF S4096x128 S128x64 S4096x64 [1] [0] [0] [1] [] []
  scatter_S4096x4096_S131072x2_S131072_n_01_01_1_wf : ScatterDims.WF S4096x4096 S131072x2 S131072 [] [0, 1] [0, 1] 1
  dot_S4096x4096_S4096x64_S4096x64_1_0_0_1_n_n_wf : DotDims.WF S4096x4096 S4096x64 S4096x64 [1] [0] [0] [1] [] []

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def scatter_S4096x4096_S131072x2_S131072_n_01_01_1 : ScatterDims S4096x4096 S131072x2 S131072 where
  updateWindowDims := []
  insertedWindowDims := [0, 1]
  scatterDimsToOperandDims := [0, 1]
  indexVectorDim := 1
  wf := scatter_S4096x4096_S131072x2_S131072_n_01_01_1_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.Product.lean ====
/-
  The mathematics both programs are read against: the product of two matrices of extended reals, entry by entry,
  (a · b)[p, q] = ∑ k, a[p, k] · b[k, q]. The host's dot_general over the plain contraction is this product, and a
  kernel's tpu.matmul into the zero accumulator, applied to a tile of rows of the left factor, is the same rows of it:
  a sum over k is never split, so no law of arithmetic beyond the definition is used, and infinities need no care.
-/
import Idealize.ShloMosaic.PureOps.Ideal.Laws
import Idealize.ShloMosaic.Lib.ValueIdx
import proofs.«136847_j43284680409688_1_alg».proof.Proof.LibContract

noncomputable section

namespace Cert.Product

open Idealize.ShloMosaic Idealize.ShloMosaic.ValueIdx

/-- The product of an [M, K] and a [K, N] matrix of extended reals. -/
def mul (M K N : Nat) (a : (⟨2, ![M, K]⟩ : Shape).Idx → EReal) (b : (⟨2, ![K, N]⟩ : Shape).Idx → EReal) :
    (⟨2, ![M, N]⟩ : Shape).Idx → EReal :=
  fun j => ∑ k : Fin K, a (ix2 (j 0) k) * b (ix2 k (j 1))

/-- The host's dot_general over the plain contraction is the product. -/
theorem dotGeneral_eq_mul (M K N : Nat) {φ₁ φ₂ : FTy} (prec : Option ContractPrecision)
    (a : FVec Ideal (⟨2, ![M, K]⟩ : Shape) φ₁) (b : FVec Ideal (⟨2, ![K, N]⟩ : Shape) φ₂) :
    Host.dotGeneral (DotDims.plain M K N) prec a b = mul M K N a b := by
  funext j
  obtain ⟨p, q, rfl⟩ : ∃ (p : Fin M) (q : Fin N), j = ix2 p q := ⟨j 0, j 1, eq_ix2 j⟩
  exact Cert.LibDense.dotGeneral_plain_apply M K N prec a b p q

/-- A tile of rows: when the left operand holds, row for row, rows of a (row j 0 of the tile is row i 0 of a) and the
    right operand agrees with b on column j 1 = i 1, the tpu.matmul of the tile into the zero accumulator has at j the
    product's entry at i. -/
theorem matmul_tile_apply (R M K N : Nat) {φ₁ φ₂ : FTy} (prec : Option ContractPrecision)
    (ta : FVec Ideal (⟨2, ![R, K]⟩ : Shape) φ₁) (tb : FVec Ideal (⟨2, ![K, N]⟩ : Shape) φ₂)
    (a : (⟨2, ![M, K]⟩ : Shape).Idx → EReal) (b : (⟨2, ![K, N]⟩ : Shape).Idx → EReal)
    (j : (⟨2, ![R, N]⟩ : Shape).Idx) (i : (⟨2, ![M, N]⟩ : Shape).Idx)
    (ha : ∀ k : Fin K, ta (ix2 (j 0) k) = a (ix2 (i 0) k)) (hb : ∀ k : Fin K, tb (ix2 k (j 1)) = b (ix2 k (i 1))) :
    matmul (DotDims.plain R K N) prec ta tb (constant (F := Ideal) (⟨2, ![R, N]⟩ : Shape) .f32 0x00000000#32) j
      = mul M K N a b i := by
  obtain ⟨p, q, rfl⟩ : ∃ (p : Fin R) (q : Fin N), j = ix2 p q := ⟨j 0, j 1, eq_ix2 j⟩
  rw [Cert.LibDense.matmul_plain_zero_apply R K N prec ta tb p q]
  exact Finset.sum_congr rfl fun k _ => by
    rw [show ta (ix2 p k) = a (ix2 (i 0) k) from ha k, show tb (ix2 k q) = b (ix2 k (i 1)) from hb k]

end Cert.Product

end
-- ==== Proof.Tiles.lean ====
/-
  What each kernel region leaves in its output array, as one function of the arrays the region finds.
  Every region walks eight tiles of 512 rows. At tile t the body multiplies rows 512 t .. 512 t + 511 of the left
  factor by the whole right factor into a zero accumulator and stores the 512 x 64 result, which is written back as
  rows 512 t .. 512 t + 511 of the output: the same rows of the product of the two whole arrays. The eight tiles cover
  all 4096 rows, so the output array ends holding the product. Region 0 multiplies the node features by the embedding
  matrix; regions 1, 2 and 3 multiply the adjacency matrix by the previous region's output.
-/
import proofs.«136847_j43284680409688_1_alg».proof.Proof.Gen.KernelIdeal.Frame
import proofs.«136847_j43284680409688_1_alg».proof.Proof.Product
import Idealize.ShloMosaic.Lib.Pipeline.Value

set_option maxRecDepth 16384

noncomputable section

namespace Cert.KernelIdeal.Tiles

open Cert.KernelIdeal Cert.KernelIdeal.Gen Cert.Product
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The bodies' payloads at an entry -/

/-- The adjacency kernel's payload: with the left block holding rows of a and the right block agreeing with x on the
    entry's column, the stored value at j is the product's entry at i. The change of format of the right block is the
    identity on extended reals, and the two shape casts are between equal shapes. -/
theorem spmm_pay_apply (x0 : Vec Ideal S512x4096 .bf16) (x1 : Vec Ideal S4096x64 .f32)
    (a : S4096x4096.Idx → EReal) (x : S4096x64.Idx → EReal) (j : S512x64.Idx) (i : S4096x64.Idx)
    (ha : ∀ k : Fin 4096, x0 (ix2 (j 0) k) = a (ix2 (i 0) k)) (hx : ∀ k : Fin 4096, x1 (ix2 k (j 1)) = x (ix2 k (i 1))) :
    k1_pay1 x0 x1 j = mul 4096 4096 64 a x i := by
  unfold k1_pay1
  simp only [shapeCast_self]
  exact matmul_tile_apply 512 4096 4096 64 none x0 x1 a x j i ha hx

/-- The embedding kernel's payload, the same way: both changes of format are the identity. -/
theorem embed_pay_apply (x0 : Vec Ideal S512x128 .f32) (x1 : Vec Ideal S128x64 .f32)
    (a : S4096x128.Idx → EReal) (b : S128x64.Idx → EReal) (j : S512x64.Idx) (i : S4096x64.Idx)
    (ha : ∀ k : Fin 128, x0 (ix2 (j 0) k) = a (ix2 (i 0) k)) (hb : ∀ k : Fin 128, x1 (ix2 k (j 1)) = b (ix2 k (i 1))) :
    k0_pay1 x0 x1 j = mul 4096 128 64 a b i := by
  unfold k0_pay1
  exact matmul_tile_apply 512 4096 128 64 none x0 x1 a b j i ha hb

/-! ## Region 0: the node features times the embedding matrix -/

/-- The printed index maps of region 0, decided over its eight points: the left factor's and the output's tile index is
    the point, the right factor is fetched whole. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is tile t of the product of the two arrays the region finds. -/
theorem flushed0 (c : Dev nD) (t : Fin cfg0.N) :
    (dat0 V c).flushed 2 t
      = ((cfg0.win 2).blk t).view.read (Elt Ideal) (mul 4096 128 64 (V c main_arg0) (V c main_arg1)) := by
  show (cfg0.win 2).cut (grid0.coords t) ((dat0 V c).after 2 t) = _
  rw [after0_2]
  unfold out0_2
  rw [View.canon_unit_zero hz]
  simp only [View.ld_unit_zero (S := S512x128) hz, View.ld_unit_zero (S := S128x64) hz]
  obtain ⟨e0, e1, e2, e3, e4, e5⟩ := idx0 t
  funext j
  refine embed_pay_apply (iblk0 V c 0 t) (iblk0 V c 1 t) (V c main_arg0) (V c main_arg1) j (((cfg0.win 2).blk t).view.emb j) ?_ ?_
  · intro k
    show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 512 + 1 * (j 0).val = win0_2.index t (0 : Fin 2) * 512 + 1 * (j 0).val; omega
    | ⟨1, _⟩ => show win0_0.index t (1 : Fin 2) * 128 + 1 * k.val = k.val; omega
  · intro k
    show V c main_arg1 (((cfg0.win 1).blk t).view.emb (ix2 k (j 1))) = V c main_arg1 (ix2 k ((((cfg0.win 2).blk t).view.emb j) 1))
    refine congrArg (V c main_arg1) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega

/-- An index of the output array is in point t's tile iff its row is one of the tile's 512 rows. -/
theorem mem_blk0 (t : Fin cfg0.N) (i : S4096x64.Idx) :
    i ∈ ((cfg0.win 2).blk t).view.set ↔ ∀ a : Fin 2, win0_2.index t a * S512x64.size a ≤ (i a).val ∧ (i a).val < win0_2.index t a * S512x64.size a + S512x64.size a := by
  show i ∈ ((View.whole main_v0).slice (win0_2.rect t)).set ↔ _
  rw [View.set_slice_whole, Rect.mem_set_unit]
  exact Iff.rfl

/-- Every row of the output lies in the tile of the point row / 512, which writes back. -/
theorem cover0 (i : S4096x64.Idx) : ∃ t : Fin cfg0.N, (cfg0.win 2).flush t = true ∧ i ∈ ((cfg0.win 2).blk t).view.set := by
  have hi0 : (i 0).val < 4096 := (i 0).isLt
  have hi1 : (i 1).val < 64 := (i 1).isLt
  let t : Fin cfg0.N := ⟨(i 0).val / 512, by rw [show cfg0.N = 8 from N_0]; omega⟩
  obtain ⟨e0, e1, e2, e3, e4, e5⟩ := idx0 t
  have ht : t.val = (i 0).val / 512 := rfl
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 64 ≤ (i 1).val ∧ (i 1).val < win0_2.index t (1 : Fin 2) * 64 + 64; omega

/-- The output array after region 0: the product of the two arrays the region finds. -/
theorem final0 (c : Dev nD) : (dat0 V c).arrAt 2 cfg0.N = mul 4096 128 64 (V c main_arg0) (V c main_arg1) :=
  (dat0 V c).arrAt_eq_of_cover 2 _ (fun t _ => flushed0 V c t) (cover0)

/-! ## Region 1: the adjacency matrix times region 0's output -/

/-- The printed index maps of region 1, decided over its eight points. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is tile t of the product of the two arrays the region finds. -/
theorem flushed1 (c : Dev nD) (t : Fin cfg1.N) :
    (dat1 V c).flushed 2 t
      = ((cfg1.win 2).blk t).view.read (Elt Ideal) (mul 4096 4096 64 (V c main_v20) (V c main_v0)) := by
  show (cfg1.win 2).cut (grid1.coords t) ((dat1 V c).after 2 t) = _
  rw [after1_2]
  unfold out1_2
  rw [View.canon_unit_zero hz]
  simp only [View.ld_unit_zero (S := S512x4096) hz, View.ld_unit_zero (S := S4096x64) hz]
  obtain ⟨e0, e1, e2, e3, e4, e5⟩ := idx1 t
  funext j
  refine spmm_pay_apply (iblk1 V c 0 t) (iblk1 V c 1 t) (V c main_v20) (V c main_v0) j (((cfg1.win 2).blk t).view.emb j) ?_ ?_
  · intro k
    show V c main_v20 (((cfg1.win 0).blk t).view.emb (ix2 (j 0) k)) = V c main_v20 (ix2 ((((cfg1.win 2).blk t).view.emb j) 0) k)
    refine congrArg (V c main_v20) (funext fun a => Fin.ext ?_)
    match a with
    | ⟨0, _⟩ => show win1_0.index t (0 : Fin 2) * 512 + 1 * (j 0).val = win1_2.index t (0 : Fin 2) * 512 + 1 * (j 0).val; omega
    | ⟨1, _⟩ => show win1_0.index t (1 : Fin 2) * 4096 + 1 * k.val = k.val; omega
  · intro k
    show V c main_v0 (((cfg1.win 1).blk t).view.emb (ix2 k (j 1))) = V c main_v0 (ix2 k ((((cfg1.win 2).blk t).view.emb j) 1))
    refine congrArg (V c main_v0) (funext fun a => Fin.ext ?_)
    match a with
    | ⟨0, _⟩ => show win1_1.index t (0 : Fin 2) * 4096 + 1 * k.val = k.val; omega
    | ⟨1, _⟩ => show win1_1.index t (1 : Fin 2) * 64 + 1 * (j 1).val = win1_2.index t (1 : Fin 2) * 64 + 1 * (j 1).val; omega

/-- An index of the output array is in point t's tile iff its row is one of the tile's 512 rows. -/
theorem mem_blk1 (t : Fin cfg1.N) (i : S4096x64.Idx) :
    i ∈ ((cfg1.win 2).blk t).view.set ↔ ∀ a : Fin 2, win1_2.index t a * S512x64.size a ≤ (i a).val ∧ (i a).val < win1_2.index t a * S512x64.size a + S512x64.size a := by
  show i ∈ ((View.whole main_v21).slice (win1_2.rect t)).set ↔ _
  rw [View.set_slice_whole, Rect.mem_set_unit]
  exact Iff.rfl

/-- Every row of the output lies in the tile of the point row / 512, which writes back. -/
theorem cover1 (i : S4096x64.Idx) : ∃ t : Fin cfg1.N, (cfg1.win 2).flush t = true ∧ i ∈ ((cfg1.win 2).blk t).view.set := by
  have hi0 : (i 0).val < 4096 := (i 0).isLt
  have hi1 : (i 1).val < 64 := (i 1).isLt
  let t : Fin cfg1.N := ⟨(i 0).val / 512, by rw [show cfg1.N = 8 from N_1]; omega⟩
  obtain ⟨e0, e1, e2, e3, e4, e5⟩ := idx1 t
  have ht : t.val = (i 0).val / 512 := rfl
  refine ⟨t, flush1_2 t, ?_⟩
  rw [mem_blk1]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 64 ≤ (i 1).val ∧ (i 1).val < win1_2.index t (1 : Fin 2) * 64 + 64; omega

/-- The output array after region 1: the product of the two arrays the region finds. -/
theorem final1 (c : Dev nD) : (dat1 V c).arrAt 2 cfg1.N = mul 4096 4096 64 (V c main_v20) (V c main_v0) :=
  (dat1 V c).arrAt_eq_of_cover 2 _ (fun t _ => flushed1 V c t) (cover1)

/-! ## Region 2: the adjacency matrix times region 1's output

The body is the text of region 1's (its payload is the same term), over region 2's own windows. -/

theorem pay2_eq (x0 : Vec Ideal S512x4096 .bf16) (x1 : Vec Ideal S4096x64 .f32) : k2_pay1 x0 x1 = k1_pay1 x0 x1 := rfl

/-- The printed index maps of region 2, decided over its eight points. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is tile t of the product of the two arrays the region finds. -/
theorem flushed2 (c : Dev nD) (t : Fin cfg2.N) :
    (dat2 V c).flushed 2 t
      = ((cfg2.win 2).blk t).view.read (Elt Ideal) (mul 4096 4096 64 (V c main_v20) (V c main_v21)) := by
  show (cfg2.win 2).cut (grid2.coords t) ((dat2 V c).after 2 t) = _
  rw [after2_2]
  unfold out2_2
  rw [View.canon_unit_zero hz, pay2_eq]
  simp only [View.ld_unit_zero (S := S512x4096) hz, View.ld_unit_zero (S := S4096x64) hz]
  obtain ⟨e0, e1, e2, e3, e4, e5⟩ := idx2 t
  funext j
  refine spmm_pay_apply (iblk2 V c 0 t) (iblk2 V c 1 t) (V c main_v20) (V c main_v21) j (((cfg2.win 2).blk t).view.emb j) ?_ ?_
  · intro k
    show V c main_v20 (((cfg2.win 0).blk t).view.emb (ix2 (j 0) k)) = V c main_v20 (ix2 ((((cfg2.win 2).blk t).view.emb j) 0) k)
    refine congrArg (V c main_v20) (funext fun a => Fin.ext ?_)
    match a with
    | ⟨0, _⟩ => show win2_0.index t (0 : Fin 2) * 512 + 1 * (j 0).val = win2_2.index t (0 : Fin 2) * 512 + 1 * (j 0).val; omega
    | ⟨1, _⟩ => show win2_0.index t (1 : Fin 2) * 4096 + 1 * k.val = k.val; omega
  · intro k
    show V c main_v21 (((cfg2.win 1).blk t).view.emb (ix2 k (j 1))) = V c main_v21 (ix2 k ((((cfg2.win 2).blk t).view.emb j) 1))
    refine congrArg (V c main_v21) (funext fun a => Fin.ext ?_)
    match a with
    | ⟨0, _⟩ => show win2_1.index t (0 : Fin 2) * 4096 + 1 * k.val = k.val; omega
    | ⟨1, _⟩ => show win2_1.index t (1 : Fin 2) * 64 + 1 * (j 1).val = win2_2.index t (1 : Fin 2) * 64 + 1 * (j 1).val; omega

/-- An index of the output array is in point t's tile iff its row is one of the tile's 512 rows. -/
theorem mem_blk2 (t : Fin cfg2.N) (i : S4096x64.Idx) :
    i ∈ ((cfg2.win 2).blk t).view.set ↔ ∀ a : Fin 2, win2_2.index t a * S512x64.size a ≤ (i a).val ∧ (i a).val < win2_2.index t a * S512x64.size a + S512x64.size a := by
  show i ∈ ((View.whole main_v22).slice (win2_2.rect t)).set ↔ _
  rw [View.set_slice_whole, Rect.mem_set_unit]
  exact Iff.rfl

/-- Every row of the output lies in the tile of the point row / 512, which writes back. -/
theorem cover2 (i : S4096x64.Idx) : ∃ t : Fin cfg2.N, (cfg2.win 2).flush t = true ∧ i ∈ ((cfg2.win 2).blk t).view.set := by
  have hi0 : (i 0).val < 4096 := (i 0).isLt
  have hi1 : (i 1).val < 64 := (i 1).isLt
  let t : Fin cfg2.N := ⟨(i 0).val / 512, by rw [show cfg2.N = 8 from N_2]; omega⟩
  obtain ⟨e0, e1, e2, e3, e4, e5⟩ := idx2 t
  have ht : t.val = (i 0).val / 512 := rfl
  refine ⟨t, flush2_2 t, ?_⟩
  rw [mem_blk2]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 64 ≤ (i 1).val ∧ (i 1).val < win2_2.index t (1 : Fin 2) * 64 + 64; omega

/-- The output array after region 2: the product of the two arrays the region finds. -/
theorem final2 (c : Dev nD) : (dat2 V c).arrAt 2 cfg2.N = mul 4096 4096 64 (V c main_v20) (V c main_v21) :=
  (dat2 V c).arrAt_eq_of_cover 2 _ (fun t _ => flushed2 V c t) (cover2)

/-! ## Region 3: the adjacency matrix times region 2's output -/

theorem pay3_eq (x0 : Vec Ideal S512x4096 .bf16) (x1 : Vec Ideal S4096x64 .f32) : k3_pay1 x0 x1 = k1_pay1 x0 x1 := rfl

/-- The printed index maps of region 3, decided over its eight points. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is tile t of the product of the two arrays the region finds. -/
theorem flushed3 (c : Dev nD) (t : Fin cfg3.N) :
    (dat3 V c).flushed 2 t
      = ((cfg3.win 2).blk t).view.read (Elt Ideal) (mul 4096 4096 64 (V c main_v20) (V c main_v22)) := by
  show (cfg3.win 2).cut (grid3.coords t) ((dat3 V c).after 2 t) = _
  rw [after3_2]
  unfold out3_2
  rw [View.canon_unit_zero hz, pay3_eq]
  simp only [View.ld_unit_zero (S := S512x4096) hz, View.ld_unit_zero (S := S4096x64) hz]
  obtain ⟨e0, e1, e2, e3, e4, e5⟩ := idx3 t
  funext j
  refine spmm_pay_apply (iblk3 V c 0 t) (iblk3 V c 1 t) (V c main_v20) (V c main_v22) j (((cfg3.win 2).blk t).view.emb j) ?_ ?_
  · intro k
    show V c main_v20 (((cfg3.win 0).blk t).view.emb (ix2 (j 0) k)) = V c main_v20 (ix2 ((((cfg3.win 2).blk t).view.emb j) 0) k)
    refine congrArg (V c main_v20) (funext fun a => Fin.ext ?_)
    match a with
    | ⟨0, _⟩ => show win3_0.index t (0 : Fin 2) * 512 + 1 * (j 0).val = win3_2.index t (0 : Fin 2) * 512 + 1 * (j 0).val; omega
    | ⟨1, _⟩ => show win3_0.index t (1 : Fin 2) * 4096 + 1 * k.val = k.val; omega
  · intro k
    show V c main_v22 (((cfg3.win 1).blk t).view.emb (ix2 k (j 1))) = V c main_v22 (ix2 k ((((cfg3.win 2).blk t).view.emb j) 1))
    refine congrArg (V c main_v22) (funext fun a => Fin.ext ?_)
    match a with
    | ⟨0, _⟩ => show win3_1.index t (0 : Fin 2) * 4096 + 1 * k.val = k.val; omega
    | ⟨1, _⟩ => show win3_1.index t (1 : Fin 2) * 64 + 1 * (j 1).val = win3_2.index t (1 : Fin 2) * 64 + 1 * (j 1).val; omega

/-- An index of the output array is in point t's tile iff its row is one of the tile's 512 rows. -/
theorem mem_blk3 (t : Fin cfg3.N) (i : S4096x64.Idx) :
    i ∈ ((cfg3.win 2).blk t).view.set ↔ ∀ a : Fin 2, win3_2.index t a * S512x64.size a ≤ (i a).val ∧ (i a).val < win3_2.index t a * S512x64.size a + S512x64.size a := by
  show i ∈ ((View.whole main_v23).slice (win3_2.rect t)).set ↔ _
  rw [View.set_slice_whole, Rect.mem_set_unit]
  exact Iff.rfl

/-- Every row of the output lies in the tile of the point row / 512, which writes back. -/
theorem cover3 (i : S4096x64.Idx) : ∃ t : Fin cfg3.N, (cfg3.win 2).flush t = true ∧ i ∈ ((cfg3.win 2).blk t).view.set := by
  have hi0 : (i 0).val < 4096 := (i 0).isLt
  have hi1 : (i 1).val < 64 := (i 1).isLt
  let t : Fin cfg3.N := ⟨(i 0).val / 512, by rw [show cfg3.N = 8 from N_3]; omega⟩
  obtain ⟨e0, e1, e2, e3, e4, e5⟩ := idx3 t
  have ht : t.val = (i 0).val / 512 := rfl
  refine ⟨t, flush3_2 t, ?_⟩
  rw [mem_blk3]
  intro a
  match a with
  | ⟨0, _⟩ => show win3_2.index t (0 : Fin 2) * 512 ≤ (i 0).val ∧ (i 0).val < win3_2.index t (0 : Fin 2) * 512 + 512; omega
  | ⟨1, _⟩ => show win3_2.index t (1 : Fin 2) * 64 ≤ (i 1).val ∧ (i 1).val < win3_2.index t (1 : Fin 2) * 64 + 64; omega

/-- The output array after region 3: the product of the two arrays the region finds. -/
theorem final3 (c : Dev nD) : (dat3 V c).arrAt 2 cfg3.N = mul 4096 4096 64 (V c main_v20) (V c main_v22) :=
  (dat3 V c).arrAt_eq_of_cover 2 _ (fun t _ => flushed3 V c t) (cover3)

end Cert.KernelIdeal.Tiles

end
-- ==== Proof.Fold.lean ====
/-
  The arrays at the boundaries of the kernel program's five segments, on the extended reals, read back to the arguments.
  Region 0 leaves x0 = features · embedding in main_v0. The host stretch builds the adjacency matrix a by scattering the
  edge weights into a zero matrix at the (wrapped) index pairs: the very operations of the reference, on a matrix whose
  change of format is the identity and whose zero literal is zero on extended reals, so it is the reference's adjacency
  matrix. Regions 1, 2 and 3 each read a through their first window, which leaves it unchanged, and the previous product
  through their second, and leave a · x in their output array: a · (a · (a · x0)) at the end.
-/
import proofs.«136847_j43284680409688_1_alg».proof.Proof.Tiles
import proofs.«136847_j43284680409688_1_alg».proof.Proof.Gen.ReferenceIdeal.Read

set_option maxRecDepth 16384

noncomputable section

namespace Cert.KernelIdeal.Fold

open Cert.KernelIdeal Cert.KernelIdeal.Gen Cert.Product
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The embedded features: the first product. -/
abbrev x0 (c : Dev nD) : S4096x64.Idx → EReal :=
  mul 4096 128 64 (m ((c : Thread nD τ).loc main_arg0)) (m ((c : Thread nD τ).loc main_arg1))

/-- The adjacency matrix, as the reference builds it from the index pairs and the weights. -/
abbrev adj (c : Dev nD) : S4096x4096.Idx → EReal :=
  Cert.ReferenceIdeal.Read.val_main_v19 (F := Ideal) (m ((c : Thread nD τ).loc main_arg2)) (m ((c : Thread nD τ).loc main_arg3))

/-- The program's result: three products by the adjacency matrix of the embedded features. -/
abbrev result (c : Dev nD) : S4096x64.Idx → EReal :=
  mul 4096 4096 64 (adj m c) (mul 4096 4096 64 (adj m c) (mul 4096 4096 64 (adj m c) (x0 m c)))

/-! ## Region 0 and the host stretch -/

/-- Region 0 leaves the embedded features in its output array. -/
theorem W1_v0 (c : Dev nD) : W1 m ρ c (Proc.devRef .tc main_v0) = x0 m c :=
  (W1_arr m ρ c 2).trans (Tiles.final0 (V0 m ρ) c)

/-- The bf16 zero word is zero. -/
theorem ofBits_zero_bf16 : Ideal.ofBits .bf16 0x0000#16 = 0 := by simp [Ideal.ofBits, Ideal.ieee]

set_option maxHeartbeats 1000000 in
/-- The host stretch, from any contents: main_v20 ends at the reference's scatter of the two arguments' contents. Both
    zero literals are zero; the weights' change of format, the reshapes' casts and the two programs' shape records agree
    by computation. -/
theorem stretch_v20 (W : Valuation τ sig (Elt Ideal)) :
    StableHlo.after hostOps1 W (Proc.devRef .tc main_v20)
      = Cert.ReferenceIdeal.Read.val_main_v19 (F := Ideal) (W (Proc.devRef .tc main_arg2)) (W (Proc.devRef .tc main_arg3)) := by
  dsimp only [hostOps1]
  after_results
  have hzk : (constant (F := Ideal) S_ .bf16 0x0000#16 : FVec Ideal S_ .bf16) = fun _ => (0 : EReal) :=
    funext fun _ => ofBits_zero_bf16
  have hzr : (constant (F := Ideal) Cert.ReferenceIdeal.S_ .f32 0x00000000#32 : FVec Ideal Cert.ReferenceIdeal.S_ .f32) = fun _ => (0 : EReal) :=
    funext fun _ => Ideal.ofBits_zero_f32
  unfold Cert.ReferenceIdeal.Read.val_main_v19 Cert.ReferenceIdeal.Read.val_main_v1 Cert.ReferenceIdeal.Read.val_main_cst
  rw [hzk, hzr]
  rfl

/-- After the host stretch main_v20 holds the adjacency matrix of the arguments (region 0 wrote neither argument). -/
theorem W2_v20 (c : Dev nD) : W2 m ρ c (Proc.devRef .tc main_v20) = adj m c :=
  (stretch_v20 (W1 m ρ c)).trans
    (congrArg₂ (Cert.ReferenceIdeal.Read.val_main_v19 (F := Ideal))
      (W1_of_ne m ρ c main_arg2 (by decide)) (W1_of_ne m ρ c main_arg3 (by decide)))

/-- No operation of the host stretch writes main_v0: it still holds the embedded features. -/
theorem W2_v0 (c : Dev nD) : W2 m ρ c (Proc.devRef .tc main_v0) = x0 m c :=
  (StableHlo.after_of_forall_not_mem (b := Proc.devRef .tc main_v0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_v0 m ρ c)

/-! ## Regions 1, 2, 3: a product each, the adjacency matrix carried along -/

theorem W3_v20 (c : Dev nD) : W3 m ρ c (Proc.devRef .tc main_v20) = adj m c :=
  (W3_arr m ρ c 0).trans (((dat1 (V2 m ρ) c).arrAt_in 0 rfl _).trans ((A_eq1 (V2 m ρ) c 0).trans (W2_v20 m ρ c)))

theorem W3_v21 (c : Dev nD) : W3 m ρ c (Proc.devRef .tc main_v21) = mul 4096 4096 64 (adj m c) (x0 m c) :=
  (W3_arr m ρ c 2).trans ((Tiles.final1 (V2 m ρ) c).trans
    (congrArg₂ (mul 4096 4096 64) (W2_v20 m ρ c) (W2_v0 m ρ c)))

theorem W4_v20 (c : Dev nD) : W4 m ρ c (Proc.devRef .tc main_v20) = adj m c :=
  (W4_arr m ρ c 0).trans (((dat2 (V3 m ρ) c).arrAt_in 0 rfl _).trans ((A_eq2 (V3 m ρ) c 0).trans (W3_v20 m ρ c)))

theorem W4_v22 (c : Dev nD) :
    W4 m ρ c (Proc.devRef .tc main_v22) = mul 4096 4096 64 (adj m c) (mul 4096 4096 64 (adj m c) (x0 m c)) :=
  (W4_arr m ρ c 2).trans ((Tiles.final2 (V3 m ρ) c).trans
    (congrArg₂ (mul 4096 4096 64) (W3_v20 m ρ c) (W3_v21 m ρ c)))

/-- The result array at the last boundary. -/
theorem W5_v23 (c : Dev nD) : W5 m ρ c (Proc.devRef .tc main_v23) = result m c :=
  (W5_arr m ρ c 2).trans ((Tiles.final3 (V4 m ρ) c).trans
    (congrArg₂ (mul 4096 4096 64) (W4_v20 m ρ c) (W4_v22 m ρ c)))

end Cert.KernelIdeal.Fold

end
-- ==== Proof.RefSide.lean ====
/-
  The reference on the extended reals: each of its four dot_general lines is the matrix product of its operands, so its
  result is a · (a · (a · (features · embedding))) with a the scattered adjacency matrix (the stage val_main_v19).
-/
import proofs.«136847_j43284680409688_1_alg».proof.Proof.Gen.ReferenceIdeal.Read
import proofs.«136847_j43284680409688_1_alg».proof.Proof.Product

noncomputable section

namespace Cert.ReferenceIdeal.AsProduct

open Cert.ReferenceIdeal Cert.ReferenceIdeal.Gen Cert.ReferenceIdeal.Read Cert.Product
open Idealize.ShloMosaic

/-- The two printed contraction records are the plain rank-2 contraction. -/
theorem dot_embed_plain : dot_S4096x128_S128x64_S4096x64_1_0_0_1_n_n = DotDims.plain 4096 128 64 := rfl
theorem dot_adj_plain : dot_S4096x4096_S4096x64_S4096x64_1_0_0_1_n_n = DotDims.plain 4096 4096 64 := rfl

/-- The reference's result as three products by the adjacency matrix of the embedded features. -/
theorem val_eq (f : S4096x128.Idx → EReal) (e : S128x64.Idx → EReal) (ix : S2x131072.Idx → BitVec 32) (w : S131072.Idx → EReal) :
    val_main_v22 (F := Ideal) f e ix w
      = mul 4096 4096 64 (val_main_v19 (F := Ideal) ix w) (mul 4096 4096 64 (val_main_v19 (F := Ideal) ix w)
          (mul 4096 4096 64 (val_main_v19 (F := Ideal) ix w) (mul 4096 128 64 f e))) := by
  unfold val_main_v22 val_main_v21 val_main_v20 val_main_v0
  rw [dot_embed_plain, dot_adj_plain]
  simp only [dotGeneral_eq_mul]

end Cert.ReferenceIdeal.AsProduct

end
-- ==== Proof.lean ====
/-
  The claim, over the extended reals: the kernel program and the reference compute the same [4096, 64] array from the
  node features f, the embedding matrix e, the edge index pairs and the edge weights.
  The reference forms x0 = f · e, scatters the weights into a zero [4096, 4096] matrix a at the index pairs, and
  returns a · (a · (a · x0)), each product one dot_general. The kernel program forms every one of the four products in
  eight tiles of 512 rows, a whole contraction per tile (a tpu.matmul into a zero accumulator), rounds a and the right
  factors to bf16 on the way in and builds a from a bf16 zero and bf16 weights. On extended reals a change of format is
  the identity and both zero words are zero, so a is the same matrix on both sides, and a tile of rows of a product is
  the product of that tile of rows: no sum is reordered or regrouped, so the two results are equal entry by entry with
  no finiteness assumption used. The idealization rewrote nothing, so its claim is trivial; the three frames are the
  generated frame proofs and the reference's generated run.
-/
import proofs.«136847_j43284680409688_1_alg».proof.Defs
import proofs.«136847_j43284680409688_1_alg».proof.Proof.Gen.Kernel
import proofs.«136847_j43284680409688_1_alg».proof.Proof.Gen.Kernel.Skeleton
import proofs.«136847_j43284680409688_1_alg».proof.Proof.Gen.Kernel.Launch
import proofs.«136847_j43284680409688_1_alg».proof.Proof.Gen.Kernel.Points
import proofs.«136847_j43284680409688_1_alg».proof.Proof.Gen.Kernel.Frame
import proofs.«136847_j43284680409688_1_alg».proof.Proof.Gen.KernelIdeal
import proofs.«136847_j43284680409688_1_alg».proof.Proof.Gen.KernelIdeal.Skeleton
import proofs.«136847_j43284680409688_1_alg».proof.Proof.Gen.KernelIdeal.Launch
import proofs.«136847_j43284680409688_1_alg».proof.Proof.Gen.KernelIdeal.Points
import proofs.«136847_j43284680409688_1_alg».proof.Proof.Gen.KernelIdeal.Frame
import proofs.«136847_j43284680409688_1_alg».proof.Proof.Gen.ReferenceIdeal
import proofs.«136847_j43284680409688_1_alg».proof.Proof.Gen.Pre_finite_inputs
import proofs.«136847_j43284680409688_1_alg».proof.Proof.Gen.ReferenceIdeal.Run
import proofs.«136847_j43284680409688_1_alg».proof.Proof.Gen.ReferenceIdeal.Read
import proofs.«136847_j43284680409688_1_alg».proof.Proof.NamedRun
import proofs.«136847_j43284680409688_1_alg».proof.Proof.Fold
import proofs.«136847_j43284680409688_1_alg».proof.Proof.RefSide
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with a · (a · (a · (f · e))) in their result array: the kernel program by the fold of its
    segments' boundary contents, the reference by its four products. -/
theorem algebraic : Cert.algebraic_KernelIdeal_ReferenceIdeal := by
  intro m ρ m' ρ' _ hagree
  refine ⟨fun c => Cert.KernelIdeal.Fold.result m c, ?_, ?_⟩
  · exact (θ_run Cert.KernelIdeal.defs _ _).mono
      (fun r h c => ⟨(h c).1.trans (Cert.KernelIdeal.Fold.W5_v23 m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v22_eq, Cert.ReferenceIdeal.AsProduct.val_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
